-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512x3 : Shape := ⟨4, ![16, 512, 512, 3]⟩
abbrev S16x256x3 : Shape := ⟨3, ![16, 256, 3]⟩
abbrev S_ : Shape := ⟨0, ![]⟩

class Facts : Prop where
  bcast_S_S16x512x512x3 : S_.BroadcastsInDim S16x512x512x3 (![] : Fin 0 → Fin S16x512x512x3.rank)
  reducesTo_S16x512x512x3_S_d0_1_2_3 : S16x512x512x3.ReducesTo [0, 1, 2, 3] S_
  h_S_ : 0 < S_.numel
  bcast_S_S16x256x3 : S_.BroadcastsInDim S16x256x3 (![] : Fin 0 → Fin S16x256x3.rank)
  reducesTo_S16x256x3_S_d0_1_2 : S16x256x3.ReducesTo [0, 1, 2] S_

variable [Facts]

def fn {F : FTy → Type} [FloatOps F] (main_arg0 : FVec F S16x512x512x3 .f32) (main_arg1 : FVec F S16x256x3 .f32) : IVec S_ 1 :=
  let main_v0 : FVec F S16x512x512x3 .f32 := Host.absf main_arg0
  let main_cst : FVec F S_ .f32 := constant S_ .f32 0x7F800000#32
  let main_v1 : FVec F S16x512x512x3 .f32 := broadcastInDim S16x512x512x3 ![] bcast_S_S16x512x512x3 main_cst
  let main_v2 : IVec S16x512x512x3 1 := cmpf .olt main_v0 main_v1
  let main_c : IVec S_ 1 := constantI S_ 1 1#1
  let main_v3 : IVec S_ 1 := (fun x v => Host.reduce IntOp.andi x v reducesTo_S16x512x512x3_S_d0_1_2_3 h_S_) main_v2 main_c
  let main_v4 : FVec F S16x256x3 .f32 := Host.absf main_arg1
  let main_cst_0 : FVec F S_ .f32 := constant S_ .f32 0x7F800000#32
  let main_v5 : FVec F S16x256x3 .f32 := broadcastInDim S16x256x3 ![] bcast_S_S16x256x3 main_cst_0
  let main_v6 : IVec S16x256x3 1 := cmpf .olt main_v4 main_v5
  let main_c_1 : IVec S_ 1 := constantI S_ 1 1#1
  let main_v7 : IVec S_ 1 := (fun x v => Host.reduce IntOp.andi x v reducesTo_S16x256x3_S_d0_1_2 h_S_) main_v6 main_c_1
  let main_v8 : IVec S_ 1 := andi main_v3 main_v7
  main_v8
-- ==== Kernel.lean ====
abbrev S16x512x512x3 : Shape := ⟨4, ![16, 512, 512, 3]⟩
abbrev S16x256x3 : Shape := ⟨3, ![16, 256, 3]⟩
abbrev S16x262144x3 : Shape := ⟨3, ![16, 262144, 3]⟩
abbrev S1x4096x3 : Shape := ⟨3, ![1, 4096, 3]⟩
abbrev S1x256x3 : Shape := ⟨3, ![1, 256, 3]⟩
abbrev S4096x3 : Shape := ⟨2, ![4096, 3]⟩
abbrev S256x3 : Shape := ⟨2, ![256, 3]⟩
abbrev S4096x256 : Shape := ⟨2, ![4096, 256]⟩
abbrev S4096x1 : Shape := ⟨2, ![4096, 1]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S16x512x512x3, .f32⟩
  | .hbm, ⟨1, _⟩ => ⟨S16x256x3, .f32⟩
  | .hbm, ⟨2, _⟩ => ⟨S16x262144x3, .f32⟩
  | .hbm, ⟨3, _⟩ => ⟨S16x262144x3, .f32⟩
  | .hbm, ⟨4, _⟩ => ⟨S16x512x512x3, .f32⟩
  | .local _ .vmem, ⟨0, _⟩ => ⟨S1x4096x3, .f32⟩
  | .local _ .vmem, ⟨1, _⟩ => ⟨S1x4096x3, .f32⟩
  | .local _ .vmem, ⟨2, _⟩ => ⟨S1x256x3, .f32⟩
  | .local _ .vmem, ⟨3, _⟩ => ⟨S1x256x3, .f32⟩
  | .local _ .vmem, ⟨4, _⟩ => ⟨S1x4096x3, .f32⟩
  | .local _ .vmem, ⟨5, _⟩ => ⟨S1x4096x3, .f32⟩
  | _, _ => ⟨S16x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x512x512x3_S16x262144x3 : S16x512x512x3.ShapeCasts S16x262144x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  iota_S4096x256_d1_w32 : S4096x256.Iotas .tc 32 [1]
  slices_S4096x3_o0_0_S4096x1 : S4096x3.Slices ![0, 0] S4096x1
  broadcasts_S4096x1_S4096x256 : S4096x1.Broadcasts S4096x256
  natLt_1_32 : 1 < 32
  bitsLt_bf16_f32 : FTy.bits .bf16 < FTy.bits .f32
  slices_S256x3_o0_0_S256x1 : S256x3.Slices ![0, 0] S256x1
  slices_S4096x3_o0_1_S4096x1 : S4096x3.Slices ![0, 1] S4096x1
  slices_S256x3_o0_1_S256x1 : S256x3.Slices ![0, 1] S256x1
  slices_S4096x3_o0_2_S4096x1 : S4096x3.Slices ![0, 2] S4096x1
  slices_S256x3_o0_2_S256x1 : S256x3.Slices ![0, 2] S256x1
  concatenates_S4096x1_S4096x1_S4096x1_S4096x3_d1 : Shape.Concatenates [S4096x1, S4096x1, S4096x1] S4096x3 1
  shapeCasts_S4096x3_S1x4096x3 : S4096x3.ShapeCasts S1x4096x3
  shapeCasts_S16x262144x3_S16x512x512x3 : S16x262144x3.ShapeCasts S16x512x512x3
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x262144x3.size a
  hwx0_0 : ∀ i : grid0.Coords, EltTy.bits .f32 = 32 ∨ (Rect.block (s := S16x262144x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S16x256x3.size a
  hwx0_1 : ∀ i : grid0.Coords, EltTy.bits .f32 = 32 ∨ (Rect.block (s := S16x256x3) S1x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x3.size a ≤ S16x262144x3.size a
  hwx0_2 : ∀ i : grid0.Coords, EltTy.bits .f32 = 32 ∨ (Rect.block (s := S16x262144x3) S1x4096x3.size (cc0_transform_2 i) (hinb0_2 i)).WholeWords (EltTy.packing .f32)

variable [Facts₀]

def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x512x3 : Shape := ⟨4, ![16, 512, 512, 3]⟩
abbrev S16x256x3 : Shape := ⟨3, ![16, 256, 3]⟩
abbrev S_ : Shape := ⟨0, ![]⟩
abbrev S16x262144x3 : Shape := ⟨3, ![16, 262144, 3]⟩
abbrev S16x262144x3x1 : Shape := ⟨4, ![16, 262144, 3, 1]⟩
abbrev S1 : Shape := ⟨1, ![1]⟩
abbrev S1x1x1x1 : Shape := ⟨4, ![1, 1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S16x512x512x3, .f32⟩
  | .hbm, ⟨1, _⟩ => ⟨S16x256x3, .f32⟩
  | .hbm, ⟨2, _⟩ => ⟨S_, .f32⟩
  | .hbm, ⟨3, _⟩ => ⟨S16x512x512x3, .f32⟩
  | .hbm, ⟨4, _⟩ => ⟨S16x512x512x3, .f32⟩
  | .hbm, ⟨5, _⟩ => ⟨S16x512x512x3, .f32⟩
  | .hbm, ⟨6, _⟩ => ⟨S16x512x512x3, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16x512x512x3, .i32⟩
  | .hbm, ⟨11, _⟩ => ⟨S16x512x512x3, .i32⟩
  | .hbm, ⟨12, _⟩ => ⟨S_, .i32⟩
  | .hbm, ⟨13, _⟩ => ⟨S16x512x512x3, .i32⟩
  | .hbm, ⟨14, _⟩ => ⟨S16x512x512x3, .i32⟩
  | .hbm, ⟨15, _⟩ => ⟨S16x262144x3, .i32⟩
  | .hbm, ⟨16, _⟩ => ⟨S_, .i32⟩
  | .hbm, ⟨17, _⟩ => ⟨S16x262144x3, .i32⟩
  | .hbm, ⟨18, _⟩ => ⟨S16x262144x3, .i1⟩
  | .hbm, ⟨19, _⟩ => ⟨S_, .i32⟩
  | .hbm, ⟨20, _⟩ => ⟨S16x262144x3, .i32⟩
  | .hbm, ⟨21, _⟩ => ⟨S16x262144x3, .i32⟩
  | .hbm, ⟨22, _⟩ => ⟨S16x262144x3, .i32⟩
  | .hbm, ⟨23, _⟩ => ⟨S16x262144x3x1, .i32⟩
  | .hbm, ⟨24, _⟩ => ⟨S1, .i32⟩
  | .hbm, ⟨25, _⟩ => ⟨S_, .i32⟩
  | .hbm, ⟨26, _⟩ => ⟨S16x262144x3x1, .i32⟩
  | .hbm, ⟨27, _⟩ => ⟨S16x262144x3x1, .i1⟩
  | .hbm, ⟨28, _⟩ => ⟨S1x1x1x1, .i32⟩
  | .hbm, ⟨29, _⟩ => ⟨S16x262144x3x1, .i32⟩
  | .hbm, ⟨30, _⟩ => ⟨S16x262144x3x1, .i1⟩
  | .hbm, ⟨31, _⟩ => ⟨S16x262144x3x1, .i1⟩
  | .hbm, ⟨32, _⟩ => ⟨S_, .i1⟩
  | .hbm, ⟨33, _⟩ => ⟨S16x262144x3, .i1⟩
  | .hbm, ⟨34, _⟩ => ⟨S16x262144x3, .f32⟩
  | .hbm, ⟨35, _⟩ => ⟨S_, .f32⟩
  | .hbm, ⟨36, _⟩ => ⟨S16x262144x3, .f32⟩
  | .hbm, ⟨37, _⟩ => ⟨S16x262144x3, .f32⟩
  | .hbm, ⟨38, _⟩ => ⟨S16x512x512x3, .f32⟩
  | _, _ => ⟨S16x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v4 : Ref sig .tc := ⟨.hbm, 14, rfl⟩
abbrev main_v5 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_cst : Ref sig .tc := ⟨.hbm, 35, rfl⟩
abbrev main_call2_v14 : Ref sig .tc := ⟨.hbm, 36, rfl⟩
abbrev main_v6 : Ref sig .tc := ⟨.hbm, 37, rfl⟩
abbrev main_v7 : Ref sig .tc := ⟨.hbm, 38, rfl⟩

abbrev nD : Nat := 1
abbrev τ : Topo := Topo.v7x

variable {F : FTy → Type} [FloatOps F]

class Facts₀ : Prop where
  bcast_S_S16x512x512x3 : S_.BroadcastsInDim S16x512x512x3 (![] : Fin 0 → Fin S16x512x512x3.rank)
  shapeCasts_S16x512x512x3_S16x262144x3 : S16x512x512x3.ShapeCasts S16x262144x3
  bcast_S_S16x262144x3 : S_.BroadcastsInDim S16x262144x3 (![] : Fin 0 → Fin S16x262144x3.rank)
  shapeCasts_S16x262144x3_S16x262144x3x1 : S16x262144x3.ShapeCasts S16x262144x3x1
  bcast_S_S16x262144x3x1 : S_.BroadcastsInDim S16x262144x3x1 (![] : Fin 0 → Fin S16x262144x3x1.rank)
  bcast_S1_S1x1x1x1_3 : S1.BroadcastsInDim S1x1x1x1 (![3] : Fin 1 → Fin S1x1x1x1.rank)
  bcast_S1x1x1x1_S16x262144x3x1_0_1_2_3 : S1x1x1x1.BroadcastsInDim S16x262144x3x1 (![0, 1, 2, 3] : Fin 4 → Fin S16x262144x3x1.rank)
  reducesTo_S16x262144x3x1_S16x262144x3_d3 : S16x262144x3x1.ReducesTo [3] S16x262144x3
  h_S_ : 0 < S_.numel
  shapeCasts_S16x262144x3_S16x512x512x3 : S16x262144x3.ShapeCasts S16x512x512x3
  gather_S16x256x3_S16x262144x3x1_S16x262144x3_n_1_02_02_1_3_111_wf : GatherDims.WF S16x256x3 S16x262144x3x1 S16x262144x3 [] [1] [0, 2] [1] [0, 2] 3 ![1, 1, 1]

variable [Facts₀]

def gather_S16x256x3_S16x262144x3x1_S16x262144x3_n_1_02_02_1_3_111 : GatherDims S16x256x3 S16x262144x3x1 S16x262144x3 where
  offsetDims := []
  collapsedSliceDims := [1]
  operandBatchingDims := [0, 2]
  startIndicesBatchingDims := [0, 2]
  startIndexMap := [1]
  indexVectorDim := 3
  sliceSizes := ![1, 1, 1]
  wf := gather_S16x256x3_S16x262144x3x1_S16x262144x3_n_1_02_02_1_3_111_wf

class Facts : Prop extends Facts₀ where

variable [Facts]
-- ==== Proof.LibOneHotPick.lean ====
/-
  Picking one entry of a table by a sum weighted with an indicator, over the extended reals: for a 32-bit word w
  below n, the sum over k < n of [w = k] · t k is t w — every other term is 0 · t k = 0, whatever t k is. With it: small
  facts about a 32-bit word below 256 read as a signed integer, the clamp of any word into [0, 255], and a reduction
  by "and" of an array of ones.
-/
import Idealize.ShloMosaic.PureOps.Ideal
import Idealize.ShloMosaic.Lib.ValueIdx
import Idealize.ShloMosaic.Lib.ReduceAll
import Mathlib.Algebra.BigOperators.Group.Finset.Basic

noncomputable section
open scoped BigOperators
open Idealize.ShloMosaic

namespace Cert.LibOneHotPick

/-! ## Words below 256, read signed -/

/-- A 32-bit word read signed is its unsigned value, or that less 2^32. -/
theorem toInt_cases (v : BitVec 32) : (v.toNat < 2147483648 ∧ v.toInt = (v.toNat : Int)) ∨ (2147483648 ≤ v.toNat ∧ v.toInt = (v.toNat : Int) - 4294967296) := by
  have := v.isLt
  rw [BitVec.toInt_eq_toNat_cond]
  split <;> omega

/-- Any word clamped from below by 0 and from above by 255, as signed integers. -/
def clampWord (v : BitVec 32) : BitVec 32 := IntOp.minsi 255#32 (IntOp.maxsi 0#32 v)

/-- The clamp lands in [0, 255]. -/
theorem clampWord_lt (v : BitVec 32) : (clampWord v).toNat < 256 := by
  unfold clampWord IntOp.minsi IntOp.maxsi
  have hv := toInt_cases v
  have h0 : (0#32 : BitVec 32).toInt = 0 := by decide
  have h255 : (255#32 : BitVec 32).toInt = 255 := by decide
  have n255 : (255#32 : BitVec 32).toNat = 255 := by decide
  have n0 : (0#32 : BitVec 32).toNat = 0 := by decide
  simp only [BitVec.slt, decide_eq_true_eq]
  split_ifs with a b b <;> first | (rw [n255]; omega) | (rw [n0]; omega) | omega

/-- A word below 256 is not negative. -/
theorem slt_zero (w : BitVec 32) (h : w.toNat < 256) : IntOp.cmpi .slt w 0#32 = 0#1 := by
  have hw := toInt_cases w
  have h0 : (0#32 : BitVec 32).toInt = 0 := by decide
  simp only [IntOp.cmpi, BitVec.slt]
  rw [decide_eq_false (by omega)]
  rfl

/-- A word below 256 is at least 0. -/
theorem sge_zero (w : BitVec 32) (h : w.toNat < 256) : IntOp.cmpi .sge w 0#32 = 1#1 := by
  have hw := toInt_cases w
  have h0 : (0#32 : BitVec 32).toInt = 0 := by decide
  simp only [IntOp.cmpi, BitVec.sle]
  rw [decide_eq_true (by omega)]
  rfl

/-- A word below 256 is at most 255. -/
theorem sle_255 (w : BitVec 32) (h : w.toNat < 256) : IntOp.cmpi .sle w 255#32 = 1#1 := by
  have hw := toInt_cases w
  have h255 : (255#32 : BitVec 32).toInt = 255 := by decide
  simp only [IntOp.cmpi, BitVec.sle]
  rw [decide_eq_true (by omega)]
  rfl

/-- Read signed and then as a natural number, a word below 256 is itself. -/
theorem toInt_toNat (w : BitVec 32) (h : w.toNat < 256) : w.toInt.toNat = w.toNat := by
  have hw := toInt_cases w
  omega

/-! ## The indicator weight and the pick -/

/-- The indicator [a = b] as an extended real: the comparison's bit, widened to 32 bits and converted. -/
def hot (a b : BitVec 32) : EReal := ((((IntOp.cmpi .eq a b).setWidth 32).toInt : ℝ) : EReal)

theorem hot_self (a : BitVec 32) : hot a a = 1 := by
  unfold hot
  have : IntOp.cmpi .eq a a = 1#1 := by simp [IntOp.cmpi]
  rw [this]
  have : ((1#1 : BitVec 1).setWidth 32).toInt = 1 := by decide
  rw [this]; simp

theorem hot_ne {a b : BitVec 32} (h : a ≠ b) : hot a b = 0 := by
  unfold hot
  have hb : (a == b) = false := by simpa using h
  have : IntOp.cmpi .eq a b = 0#1 := by simp [IntOp.cmpi, hb]
  rw [this]
  have : ((0#1 : BitVec 1).setWidth 32).toInt = 0 := by decide
  rw [this]; simp

/-- The sum over the rows of [w = k] · t k is t w. No finiteness of t is used: 0 · t k = 0 on the extended reals. -/
theorem onehot_sum {n : Nat} (hn : n ≤ 4294967296) (w : BitVec 32) (h : w.toNat < n) (t : Fin n → EReal) :
    ∑ k : Fin n, hot w (BitVec.ofNat 32 k.val) * t k = t ⟨w.toNat, h⟩ := by
  rw [Finset.sum_eq_single (⟨w.toNat, h⟩ : Fin n)]
  · have : BitVec.ofNat 32 w.toNat = w := by simp
    rw [this, hot_self, one_mul]
  · intro k _ hk
    have : w ≠ BitVec.ofNat 32 k.val := by
      intro e
      apply hk
      apply Fin.ext
      have := congrArg BitVec.toNat e
      simp only [BitVec.toNat_ofNat] at this
      have hk' := k.isLt
      show k.val = w.toNat
      omega
    rw [hot_ne this, zero_mul]
  · intro h'; exact absurd (Finset.mem_univ _) h'

/-! ## A reduction by "and" of ones -/

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by "and", from 1, of an array that is 1 everywhere is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_one x hx _

end Cert.LibOneHotPick

end
-- ==== Proof.LutSpec.lean ====
/-
  The per-pixel table lookup, stated once over literal shapes. An image im : [16, 512, 512, 3] of pixel values and, per
  sample and channel, a table T : [16, 256, 3]. Each pixel value x selects the row

      row x = clamp (toInt (roundHalfEven (255 · x))) into [0, 255],

  and the result holds, at sample b, pixel l (the two image axes flattened to one of length 262144) and channel c,

      out[b, l, c] = T[b, row (im[b, l, c]), c].

  Both programs flatten the image to [16, 262144, 3] and give the result the image's shape again at the end, so the
  lookup is stated on the flattened arrays and the two changes of shape stay outside it.
-/
import Idealize.ShloMosaic.PureOps.Ideal
import Idealize.ShloMosaic.Lib.ValueIdx
import proofs.«131949_j3616362463510_1_alg».proof.Proof.LibOneHotPick

noncomputable section
open Idealize.ShloMosaic Idealize.ShloMosaic.ValueIdx Cert.LibOneHotPick

namespace Cert.LutSpec

abbrev SImg : Shape := ⟨4, ![16, 512, 512, 3]⟩
abbrev SFlat : Shape := ⟨3, ![16, 262144, 3]⟩
abbrev STab : Shape := ⟨3, ![16, 256, 3]⟩

/-- The word of the row a pixel value selects: 255 · x, rounded half to even, converted to a signed 32-bit integer,
    clamped into [0, 255]. -/
def rowWord (x : EReal) : BitVec 32 :=
  clampWord (FloatOps.fptosi (F := Ideal) (φ := .f32) 32
    (FloatOps.roundeven (F := Ideal) (φ := .f32) (FloatOps.mulf (F := Ideal) (φ := .f32) (FloatOps.ofBits .f32 0x437F0000#32) x)))

theorem rowWord_lt (x : EReal) : (rowWord x).toNat < 256 := clampWord_lt _

/-- The selected row as an index of the table's middle axis. -/
def row (x : EReal) : Fin 256 := ⟨(rowWord x).toNat, rowWord_lt x⟩

/-- The lookup on the flattened image: out[b, l, c] = T[b, row (X[b, l, c]), c]. -/
def lookup (X : SFlat.Idx → EReal) (T : STab.Idx → EReal) : SFlat.Idx → EReal :=
  fun i => T (ix3 (i 0 : Fin 16) (row (X i)) (i 2 : Fin 3))

/-- The lookup in the image's own shape: flatten, look up, give the image's shape back. -/
def lutImage (h1 : SImg.ShapeCasts SFlat) (h2 : SFlat.ShapeCasts SImg) (im : SImg.Idx → EReal) (T : STab.Idx → EReal) :
    SImg.Idx → EReal :=
  shapeCast SImg (lookup (shapeCast SFlat im h1) T) h2

end Cert.LutSpec

end
-- ==== Proof.LibGatherAlong3.lean ====
/-
  A gather along the middle axis of a three-axis table with both outer axes batched, read at one index: what
  `take_along_axis(t, idx, axis=1)` of a table t : [B, N, C] at indices idx : [B, L, C] lowers to. Result element
  (b, l, c) is t[b, r, c], where r is the index word idx[b, l, c, 0] read as a signed integer and clamped into [0, N − 1].
-/
import Idealize.ShloMosaic.PureOps.Ideal
import Idealize.ShloMosaic.Lib.ValueIdx

noncomputable section
open Idealize.ShloMosaic Idealize.ShloMosaic.ValueIdx

namespace Cert.LibGatherAlong3
variable {α : Type}

/-- The dimension numbers: no offset axis, the middle operand axis collapsed and indexed, the outer two batched. -/
abbrev alongDims (B N C L : Nat)
    (wf : GatherDims.WF ⟨3, ![B, N, C]⟩ ⟨4, ![B, L, C, 1]⟩ ⟨3, ![B, L, C]⟩ [] [1] [0, 2] [1] [0, 2] 3 ![1, 1, 1]) :
    GatherDims ⟨3, ![B, N, C]⟩ ⟨4, ![B, L, C, 1]⟩ ⟨3, ![B, L, C]⟩ where
  offsetDims := []
  collapsedSliceDims := [1]
  operandBatchingDims := [0, 2]
  startIndicesBatchingDims := [0, 2]
  startIndexMap := [1]
  indexVectorDim := 3
  sliceSizes := ![1, 1, 1]
  wf := wf

/-- The start-indices index (b, l, c, 0) of result index (b, l, c). -/
abbrev alongIdx {B L C : Nat} (y : (⟨3, ![B, L, C]⟩ : Shape).Idx) : (⟨4, ![B, L, C, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

section
variable {B N C L w : Nat}
  (wf : GatherDims.WF ⟨3, ![B, N, C]⟩ ⟨4, ![B, L, C, 1]⟩ ⟨3, ![B, L, C]⟩ [] [1] [0, 2] [1] [0, 2] 3 ![1, 1, 1])
  (idx : IVec ⟨4, ![B, L, C, 1]⟩ w) (y : (⟨3, ![B, L, C]⟩ : Shape).Idx)

/-- On the first batched axis the operand coordinate is the result's. -/
theorem along_coord0 :
    (alongDims B N C L wf).start y idx (0 : Fin 3) + (alongDims B N C L wf).batchCoord y (0 : Fin 3)
      + (alongDims B N C L wf).offCoord y (0 : Fin 3) = (y 0).val := by
  rw [GatherDims.start_batching _ _ _ _ (show (0 : Fin 3) ∈ [0, 2] by decide),
    GatherDims.offCoord_eq_zero _ _ _ (fun h => ((GatherDims.mem_sKept _ _).mp h).2 (show (0 : Fin 3) ∈ [0, 2] by decide))]
  simp only [Nat.zero_add, Nat.add_zero]
  unfold GatherDims.batchCoord
  rw [dif_pos (show (0 : Fin 3) ∈ [0, 2] by decide)]
  rfl

/-- On the second batched axis the operand coordinate is the result's. -/
theorem along_coord2 :
    (alongDims B N C L wf).start y idx (2 : Fin 3) + (alongDims B N C L wf).batchCoord y (2 : Fin 3)
      + (alongDims B N C L wf).offCoord y (2 : Fin 3) = (y 2).val := by
  rw [GatherDims.start_batching _ _ _ _ (show (2 : Fin 3) ∈ [0, 2] by decide),
    GatherDims.offCoord_eq_zero _ _ _ (fun h => ((GatherDims.mem_sKept _ _).mp h).2 (show (2 : Fin 3) ∈ [0, 2] by decide))]
  simp only [Nat.zero_add, Nat.add_zero]
  unfold GatherDims.batchCoord
  rw [dif_pos (show (2 : Fin 3) ∈ [0, 2] by decide)]
  rfl

/-- On the indexed axis the operand coordinate is the index word, read signed and clamped. -/
theorem along_coord1 :
    (alongDims B N C L wf).start y idx (1 : Fin 3) + (alongDims B N C L wf).batchCoord y (1 : Fin 3)
      + (alongDims B N C L wf).offCoord y (1 : Fin 3) = min (idx (alongIdx y)).toInt.toNat (N - 1) := by
  rw [GatherDims.batchCoord_eq_zero _ _ _ (show (1 : Fin 3) ∉ [0, 2] by decide),
    GatherDims.offCoord_eq_zero _ _ _ (fun h => ((GatherDims.mem_sKept _ _).mp h).1 (show (1 : Fin 3) ∈ [1] by decide))]
  simp only [Nat.add_zero]
  unfold GatherDims.start
  rw [dif_pos (show (1 : Fin 3) ∈ (alongDims B N C L wf).startIndexMap from List.mem_singleton.mpr rfl)]
  have hsi : (alongDims B N C L wf).siIdx y ⟨List.idxOf (1 : Fin 3) (alongDims B N C L wf).startIndexMap,
      List.idxOf_lt_length_iff.2 (List.mem_singleton.mpr rfl)⟩ = alongIdx y := by
    funext b; refine Fin.ext ?_
    match b with
    | ⟨0, _⟩ => rfl
    | ⟨1, _⟩ => rfl
    | ⟨2, _⟩ => rfl
    | ⟨3, _⟩ => rfl
  rw [hsi]
  rfl

end

/-- The gather read at (b, l, c): the table at (b, clamp idx[b, l, c, 0], c). -/
theorem gather_along1_apply {B N C L w : Nat} (hN : 0 < N)
    (wf : GatherDims.WF ⟨3, ![B, N, C]⟩ ⟨4, ![B, L, C, 1]⟩ ⟨3, ![B, L, C]⟩ [] [1] [0, 2] [1] [0, 2] 3 ![1, 1, 1])
    (x : (⟨3, ![B, N, C]⟩ : Shape).Idx → α) (idx : IVec ⟨4, ![B, L, C, 1]⟩ w) (y : (⟨3, ![B, L, C]⟩ : Shape).Idx) :
    Host.gather (alongDims B N C L wf) x idx y
      = x (ix3 (y 0) ⟨min (idx (alongIdx y)).toInt.toNat (N - 1), by omega⟩ (y 2)) := by
  unfold Host.gather
  congr 1
  funext a
  refine Fin.ext ?_
  match a with
  | ⟨0, _⟩ => exact along_coord0 wf idx y
  | ⟨1, _⟩ => exact along_coord1 wf idx y
  | ⟨2, _⟩ => exact along_coord2 wf idx y

end Cert.LibGatherAlong3
-- ==== Proof.RefValue.lean ====
/-
  What the reference computes, at the extended reals: its four stages read at an index, and with them the result as the
  table lookup of the specification. Stage 1 is the row word of every pixel of the flattened image; a row word is below
  256, so stage 2 (wrapping a negative index by the table's length) changes nothing, stage 3 (is the index inside the
  table?) is true everywhere, and stage 4 (the gather along the table's middle axis, its index read signed and clamped,
  the filler where the mask is false) is the table's entry at the row.
-/
import proofs.«131949_j3616362463510_1_alg».proof.Proof.ReferenceRun
import proofs.«131949_j3616362463510_1_alg».proof.Proof.LutSpec
import proofs.«131949_j3616362463510_1_alg».proof.Proof.LibGatherAlong3
import Idealize.ShloMosaic.Lib.Pipeline.Value

noncomputable section

open Idealize.ShloMosaic Idealize.ShloMosaic.ValueIdx

namespace Cert.ReferenceIdeal.RefValue

open Cert.ReferenceIdeal Cert.ReferenceIdeal.Gen Cert.ReferenceIdeal.StagedRun
open Cert.LutSpec Cert.LibOneHotPick Cert.LibGatherAlong3

variable (x0 : SImg.Idx → EReal) (x1 : STab.Idx → EReal)

/-- Stage 1 at an index: the row word of that pixel of the flattened image (a change of shape commutes with an
    operation applied element by element). -/
theorem stageIdx_apply (i : SFlat.Idx) :
    stageIdx (F := Ideal) x0 i = rowWord (shapeCast SFlat x0 shapeCasts_S16x512x512x3_S16x262144x3 i) := rfl

theorem stageIdx_lt (i : SFlat.Idx) : (stageIdx (F := Ideal) x0 i).toNat < 256 := by
  rw [stageIdx_apply]; exact rowWord_lt _

/-- Stage 2 on words below 256: nothing is wrapped, so it is the change of shape alone. -/
theorem stageWrap_eq (a : IVec SFlat 32) (ha : ∀ i, (a i).toNat < 256) :
    stageWrap (F := Ideal) a = shapeCast S16x262144x3x1 a shapeCasts_S16x262144x3_S16x262144x3x1 := by
  funext k
  show Scalar.select (IntOp.cmpi .slt (a (Shape.reshapeEquiv shapeCasts_S16x262144x3_S16x262144x3x1 k)) 0#32)
      (IntOp.addi (a (Shape.reshapeEquiv shapeCasts_S16x262144x3_S16x262144x3x1 k)) 256#32)
      (a (Shape.reshapeEquiv shapeCasts_S16x262144x3_S16x262144x3x1 k)) = _
  rw [slt_zero _ (ha _), select_zero]
  rfl

/-- The index array with its trailing unit axis, read at (b, l, c, 0), is the index array at (b, l, c). -/
theorem addAxis_apply (a : IVec SFlat 32) (y : SFlat.Idx) :
    shapeCast S16x262144x3x1 a shapeCasts_S16x262144x3_S16x262144x3x1 (alongIdx y) = a y := by
  refine shapeCast_apply a shapeCasts_S16x262144x3_S16x262144x3x1 (alongIdx y) y ?_
  rewrite [Shape.rowMajor_val_three, Shape.rowMajor_val_four]
  show (((y 0).val * 262144 + (y 1).val) * 3 + (y 2).val) = ((((y 0).val * 262144 + (y 1).val) * 3 + (y 2).val) * 1 + 0)
  omega

/-- Stage 3 on words below 256: every index is inside the table. -/
theorem stageMask_eq (b : IVec S16x262144x3x1 32) (hb : ∀ k, (b k).toNat < 256) (j : SFlat.Idx) :
    stageMask (F := Ideal) b j = 1#1 := by
  unfold stageMask
  apply reduce_andi_one
  · intro k
    show IntOp.andi (IntOp.cmpi .sge (b k) 0#32) (IntOp.cmpi .sle (b k) 255#32) = 1#1
    rw [sge_zero _ (hb k), sle_255 _ (hb k)]
    rfl
  · intro _
    rfl

/-- THE REFERENCE'S RESULT is the lookup of the specification, in the image's shape. -/
theorem result_eq :
    stageTake (F := Ideal) (stageMask (F := Ideal) (stageWrap (F := Ideal) (stageIdx (F := Ideal) x0)))
        (stageWrap (F := Ideal) (stageIdx (F := Ideal) x0)) x1
      = lutImage shapeCasts_S16x512x512x3_S16x262144x3 shapeCasts_S16x262144x3_S16x512x512x3 x0 x1 := by
  have hw := stageWrap_eq (stageIdx (F := Ideal) x0) (stageIdx_lt x0)
  unfold stageTake lutImage
  refine congrArg (fun v => shapeCast S16x512x512x3 v shapeCasts_S16x262144x3_S16x512x512x3) ?_
  funext y
  have hb : ∀ k, (stageWrap (F := Ideal) (stageIdx (F := Ideal) x0) k).toNat < 256 := fun k => by
    rw [hw]; exact stageIdx_lt x0 _
  show Scalar.select (stageMask (F := Ideal) (stageWrap (F := Ideal) (stageIdx (F := Ideal) x0)) y)
      (Host.gather (alongDims 16 256 3 262144 gather_S16x256x3_S16x262144x3x1_S16x262144x3_n_1_02_02_1_3_111_wf) x1
        (stageWrap (F := Ideal) (stageIdx (F := Ideal) x0)) y) _ = _
  rw [stageMask_eq _ hb y, select_one, gather_along1_apply (by decide), hw]
  unfold lookup row
  refine congrArg x1 ?_
  funext a
  refine Fin.ext ?_
  match a with
  | ⟨0, _⟩ => rfl
  | ⟨1, _⟩ =>
    show min (shapeCast S16x262144x3x1 (stageIdx (F := Ideal) x0) shapeCasts_S16x262144x3_S16x262144x3x1 (alongIdx y)).toInt.toNat (256 - 1)
      = (rowWord (shapeCast SFlat x0 shapeCasts_S16x512x512x3_S16x262144x3 y)).toNat
    rw [addAxis_apply, stageIdx_apply]
    have := rowWord_lt (shapeCast SFlat x0 shapeCasts_S16x512x512x3_S16x262144x3 y)
    rw [toInt_toNat _ this]
    omega
  | ⟨2, _⟩ => rfl

end Cert.ReferenceIdeal.RefValue

end
-- ==== Proof.LibPlainDot.lean ====
/-
  The plain product of an m × k matrix by a k × n matrix, accumulated into the zero matrix, read at one
  entry over the extended reals: the sum over the contracted coordinate of the products of the entries.
  (The same reading of the host's product is the library's; this is the matrix unit's.)
-/
import Idealize.ShloMosaic.PureOps.Ideal.Laws
import Idealize.ShloMosaic.Lib.ValueIdx
import Idealize.ShloMosaic.Lib.StackMember

noncomputable section

open scoped BigOperators
open Idealize.ShloMosaic Idealize.ShloMosaic.ValueIdx

namespace Cert.LibPlainDot

/-- Entry (a, b) of the product into a zero accumulator is ∑_c A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply]
  have h := StackMember.dotGeneral_plain_apply (m := m) (n := n) prec A B a b
  rw [← h]
  show _ = FloatOps.dotGeneral (DotDims.plain m k n) prec HostSchedule.single A B (ix2 a b)
  rw [Ideal.dotGeneral_apply]

/-- Entry (a, b) of the host's plain product: the library's reading, restated beside the other. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainDot

end
-- ==== Proof.ColumnPick.lean ====
/-
  One column of the kernel's table lookup. The row word of every pixel is compared with 0, 1, …, 255 along a new axis:
  that is a matrix of indicators with exactly one 1 in each row. Its product with column o of the table (a
  256 × 1 matrix), accumulated into zero, is the sum over the rows k of [word = k] · table[k, o]: the table's entry at the
  word. The two narrowings of the operands to a shorter float format are the identity on the extended reals.
-/
import Idealize.ShloMosaic.PureOps.Ideal
import Idealize.ShloMosaic.PureOps.Ideal.Laws
import Idealize.ShloMosaic.Lib.ValueIdx
import Idealize.ShloMosaic.Lib.Pipeline.Value
import proofs.«131949_j3616362463510_1_alg».proof.Proof.LibPlainDot
import proofs.«131949_j3616362463510_1_alg».proof.Proof.LibOneHotPick

noncomputable section
open scoped BigOperators
open Idealize.ShloMosaic Idealize.ShloMosaic.ValueIdx Cert.LibOneHotPick

namespace Cert.ColumnPick

variable {M : Nat}

/-- Entry (p, 0) of the indicator matrix times column o of the table is the table's entry at row idxv[p, o], column o. -/
theorem column_pick (idxv : IVec ⟨2, ![M, 3]⟩ 32) (tbl : FVec Ideal ⟨2, ![256, 3]⟩ .f32) (o : Nat) (ho : o < 3)
    (hs1 : (⟨2, ![M, 3]⟩ : Shape).Slices ![0, o] ⟨2, ![M, 1]⟩) (hs2 : (⟨2, ![256, 3]⟩ : Shape).Slices ![0, o] ⟨2, ![256, 1]⟩)
    (hb : (⟨2, ![M, 1]⟩ : Shape).Broadcasts ⟨2, ![M, 256]⟩) (hi : (⟨2, ![M, 256]⟩ : Shape).Iotas .tc 32 [1])
    (h32 : 1 < 32) (hbits : FTy.bits .bf16 < FTy.bits .f32)
    (p : Fin M) (hlt : (idxv (ix2 p ⟨o, ho⟩)).toNat < 256) :
    matmul (DotDims.plain M 256 1) none
        (truncf .bf16 (sitofp .f32 (extui 32 (cmpi .eq (broadcastTo ⟨2, ![M, 256]⟩ (extractStridedSlice ⟨2, ![M, 1]⟩ ![0, o] idxv hs1) hb)
          (iota .tc ⟨2, ![M, 256]⟩ 32 [1] hi)) h32) : FVec Ideal ⟨2, ![M, 256]⟩ .f32) hbits)
        (truncf .bf16 (extractStridedSlice ⟨2, ![256, 1]⟩ ![0, o] tbl hs2) hbits)
        (constant ⟨2, ![M, 1]⟩ .f32 0x00000000#32) (ix2 p (0 : Fin 1))
      = tbl (ix2 ⟨(idxv (ix2 p ⟨o, ho⟩)).toNat, hlt⟩ ⟨o, ho⟩) := by
  rw [Cert.LibPlainDot.matmul_plain_zero_apply]
  rw [← onehot_sum (by decide) (idxv (ix2 p ⟨o, ho⟩)) hlt (fun k => tbl (ix2 k ⟨o, ho⟩))]
  refine Finset.sum_congr rfl fun k _ => ?_
  congr 1
  · show hot (broadcastTo ⟨2, ![M, 256]⟩ (extractStridedSlice ⟨2, ![M, 1]⟩ ![0, o] idxv hs1) hb (ix2 p k))
        (iota .tc ⟨2, ![M, 256]⟩ 32 [1] hi (ix2 p k)) = _
    rw [iota_single_apply, broadcastTo_apply _ hb (ix2 p k) (ix2 p (0 : Fin 1)) (fun a => by
        match a with
        | ⟨0, _⟩ =>
          show p.val = if M = 1 then 0 else p.val
          split_ifs with h
          · have := p.isLt; omega
          · rfl
        | ⟨1, _⟩ => show 0 = if (1 : Nat) = 1 then 0 else _; rw [if_pos rfl]),
      extractStridedSlice_apply _ idxv hs1 (ix2 p (0 : Fin 1)) (ix2 p ⟨o, ho⟩) (fun a => by
        match a with
        | ⟨0, _⟩ => show p.val = 0 + p.val; omega
        | ⟨1, _⟩ => show o = o + 0; rfl)]
    rfl
  · show extractStridedSlice ⟨2, ![256, 1]⟩ ![0, o] tbl hs2 (ix2 k (0 : Fin 1)) = _
    exact extractStridedSlice_apply _ tbl hs2 (ix2 k (0 : Fin 1)) (ix2 k ⟨o, ho⟩) (fun a => by
        match a with
        | ⟨0, _⟩ => show k.val = 0 + k.val; omega
        | ⟨1, _⟩ => show o = o + 0; rfl)

end Cert.ColumnPick
-- ==== Proof.LibConcatRows.lean ====
/-
  Rows placed end to end, and the concatenation of two, three or four matrices along their column axis read at one
  element: row e, column k of the joined matrix is column k of the joined rows e of the pieces.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.LibConcatRows

variable {α : Type}

/-- Two rows end to end. -/
def catRow2 {A B : ℕ} (a : Fin A → α) (b : Fin B → α) : Fin (A + B) → α := fun k =>
  if h : k.val < A then a ⟨k.val, h⟩ else b ⟨k.val - A, by have := k.isLt; omega⟩

/-- Three rows end to end. -/
def catRow3 {A B C : ℕ} (a : Fin A → α) (b : Fin B → α) (c : Fin C → α) : Fin (A + B + C) → α := fun k =>
  if h : k.val < A then a ⟨k.val, h⟩
  else if h2 : k.val < A + B then b ⟨k.val - A, by omega⟩
  else c ⟨k.val - (A + B), by have := k.isLt; omega⟩

/-- Four rows end to end. -/
def catRow4 {A B C D : ℕ} (a : Fin A → α) (b : Fin B → α) (c : Fin C → α) (d : Fin D → α) :
    Fin (A + B + C + D) → α := fun k =>
  if h : k.val < A then a ⟨k.val, h⟩
  else if h2 : k.val < A + B then b ⟨k.val - A, by omega⟩
  else if h3 : k.val < A + B + C then c ⟨k.val - (A + B), by omega⟩
  else d ⟨k.val - (A + B + C), by have := k.isLt; omega⟩

/-- The joined matrix read at row e and a column k lying in piece number p (which starts at column `pre`): piece p at
    row e and column k - pre, written as a column q of the piece with pre + q = k. -/
theorem concat_rows_piece {M N W : ℕ} (xs : List ((s : Shape) × (s.Idx → α)))
    (h : Shape.Concatenates (xs.map (·.1)) ⟨2, ![M, N]⟩ (1 : Fin 2))
    (p : ℕ) (hp : p < xs.length) (x : (⟨2, ![M, W]⟩ : Shape).Idx → α) (hx : xs[p] = ⟨⟨2, ![M, W]⟩, x⟩)
    (pre : ℕ)
    (hpre : (((xs.take p).map (·.1)).map fun s : Shape =>
      if h : s.rank = (⟨2, ![M, N]⟩ : Shape).rank then s.size ((1 : Fin 2).cast h.symm) else 0).sum = pre)
    (e : Fin M) (k : Fin N) (q : Fin W) (hq : pre + q.val = k.val) :
    concatenate (⟨2, ![M, N]⟩ : Shape) (1 : Fin 2) xs h (ix2 e k) = x (ix2 e q) := by
  refine concatenate_apply_piece (t := ⟨2, ![M, N]⟩) (1 : Fin 2) xs h (ix2 e k) p hp _ x hx rfl pre hpre (ix2 e q) ?_ ?_
  · intro b hb
    match b with
    | ⟨0, _⟩ => rfl
    | ⟨1, _⟩ => exact absurd rfl hb
  · exact hq

/-- Two matrices joined along the columns, at row e and column k. -/
theorem concat2_rows {M A B : ℕ} (xa : (⟨2, ![M, A]⟩ : Shape).Idx → α) (xb : (⟨2, ![M, B]⟩ : Shape).Idx → α)
    (h : Shape.Concatenates (([⟨⟨2, ![M, A]⟩, xa⟩, ⟨⟨2, ![M, B]⟩, xb⟩] : List ((s : Shape) × (s.Idx → α))).map (·.1))
      ⟨2, ![M, A + B]⟩ (1 : Fin 2))
    (e : Fin M) (k : Fin (A + B)) :
    concatenate (⟨2, ![M, A + B]⟩ : Shape) (1 : Fin 2) [⟨⟨2, ![M, A]⟩, xa⟩, ⟨⟨2, ![M, B]⟩, xb⟩] h (ix2 e k)
      = catRow2 (fun i => xa (ix2 e i)) (fun i => xb (ix2 e i)) k := by
  unfold catRow2
  split_ifs with h1
  · exact concat_rows_piece _ h 0 (by simp) xa rfl 0 (by simp) e k ⟨k.val, h1⟩ (by simp)
  · exact concat_rows_piece _ h 1 (by simp) xb rfl A (by simp) e k ⟨k.val - A, by have := k.isLt; omega⟩
      (by simp only; omega)

/-- Three matrices joined along the columns, at row e and column k. -/
theorem concat3_rows {M A B C : ℕ} (xa : (⟨2, ![M, A]⟩ : Shape).Idx → α) (xb : (⟨2, ![M, B]⟩ : Shape).Idx → α)
    (xc : (⟨2, ![M, C]⟩ : Shape).Idx → α)
    (h : Shape.Concatenates (([⟨⟨2, ![M, A]⟩, xa⟩, ⟨⟨2, ![M, B]⟩, xb⟩, ⟨⟨2, ![M, C]⟩, xc⟩] : List ((s : Shape) × (s.Idx → α))).map (·.1))
      ⟨2, ![M, A + B + C]⟩ (1 : Fin 2))
    (e : Fin M) (k : Fin (A + B + C)) :
    concatenate (⟨2, ![M, A + B + C]⟩ : Shape) (1 : Fin 2) [⟨⟨2, ![M, A]⟩, xa⟩, ⟨⟨2, ![M, B]⟩, xb⟩, ⟨⟨2, ![M, C]⟩, xc⟩] h (ix2 e k)
      = catRow3 (fun i => xa (ix2 e i)) (fun i => xb (ix2 e i)) (fun i => xc (ix2 e i)) k := by
  unfold catRow3
  split_ifs with h1 h2
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k
      ⟨k.val - (A + B), by have := k.isLt; omega⟩ (by simp only; omega)

/-- Four matrices joined along the columns, at row e and column k. -/
theorem concat4_rows {M A B C D : ℕ} (xa : (⟨2, ![M, A]⟩ : Shape).Idx → α) (xb : (⟨2, ![M, B]⟩ : Shape).Idx → α)
    (xc : (⟨2, ![M, C]⟩ : Shape).Idx → α) (xd : (⟨2, ![M, D]⟩ : Shape).Idx → α)
    (h : Shape.Concatenates (([⟨⟨2, ![M, A]⟩, xa⟩, ⟨⟨2, ![M, B]⟩, xb⟩, ⟨⟨2, ![M, C]⟩, xc⟩, ⟨⟨2, ![M, D]⟩, xd⟩] : List ((s : Shape) × (s.Idx → α))).map (·.1))
      ⟨2, ![M, A + B + C + D]⟩ (1 : Fin 2))
    (e : Fin M) (k : Fin (A + B + C + D)) :
    concatenate (⟨2, ![M, A + B + C + D]⟩ : Shape) (1 : Fin 2)
        [⟨⟨2, ![M, A]⟩, xa⟩, ⟨⟨2, ![M, B]⟩, xb⟩, ⟨⟨2, ![M, C]⟩, xc⟩, ⟨⟨2, ![M, D]⟩, xd⟩] h (ix2 e k)
      = catRow4 (fun i => xa (ix2 e i)) (fun i => xb (ix2 e i)) (fun i => xc (ix2 e i)) (fun i => xd (ix2 e i)) k := by
  unfold catRow4
  split_ifs with h1 h2 h3
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k ⟨k.val - (A + B), by omega⟩
      (by simp only; omega)
  · exact concat_rows_piece _ h 3 (by simp) xd rfl (A + B + C) (by simp [Nat.add_assoc]) e k
      ⟨k.val - (A + B + C), by have := k.isLt; omega⟩ (by simp only; omega)

end Cert.LibConcatRows

end
-- ==== Proof.KernelPayload.lean ====
/-
  The kernel body's result at one element of its output block. The body flattens its pixel block [1, 4096, 3] to
  [4096, 3], forms the row word of every entry, and for each of the three channels multiplies the indicator matrix of
  that channel's row words by that channel's column of the table block [256, 3]; the three one-column products are laid
  side by side and given the block's shape again. So entry (0, p, c) of the result is the table block's entry at row
  row (pixel[0, p, c]) and column c.
-/
import proofs.«131949_j3616362463510_1_alg».proof.Proof.Gen.KernelIdeal.Skeleton
import proofs.«131949_j3616362463510_1_alg».proof.Proof.ColumnPick
import proofs.«131949_j3616362463510_1_alg».proof.Proof.LibConcatRows
import proofs.«131949_j3616362463510_1_alg».proof.Proof.LutSpec
import Idealize.ShloMosaic.Lib.Pipeline.Value

noncomputable section

open Idealize.ShloMosaic Idealize.ShloMosaic.ValueIdx

namespace Cert.KernelIdeal.Payload

open Cert.KernelIdeal Cert.KernelIdeal.Gen Cert.LutSpec Cert.LibOneHotPick

variable (x0 : Vec Ideal S1x4096x3 .f32) (x1 : Vec Ideal S1x256x3 .f32)

/-- The row words of the flattened pixel block. -/
def words : IVec S4096x3 32 :=
  minsi (broadcast S4096x3 255#32) (maxsi (broadcast S4096x3 0#32) (fptosi 32 (roundeven
    (mulf (broadcast S4096x3 (Scalar.ofBits (F := Ideal) .f32 0x437F0000#32)) (shapeCast S4096x3 x0 shapeCasts_S1x4096x3_S4096x3)))))

/-- The table block without its leading unit axis. -/
def table : FVec Ideal S256x3 .f32 := shapeCast S256x3 x1 shapeCasts_S1x256x3_S256x3

/-- A block without its leading unit axis, read at (a, b), is the block at (0, a, b). -/
theorem dropUnit_ix2 {α : Type} {n0 n1 : Nat} (v : (⟨3, ![1, n0, n1]⟩ : Shape).Idx → α)
    (h : (⟨3, ![1, n0, n1]⟩ : Shape).ShapeCasts ⟨2, ![n0, n1]⟩) (a : Fin n0) (b : Fin n1) :
    shapeCast ⟨2, ![n0, n1]⟩ v h (ix2 a b) = v (ix3 (0 : Fin 1) a b) := by
  refine (shapeCast_dropUnit_apply ![n0, n1] v h (ix2 a b)).trans (congrArg v ?_)
  funext d
  match d with
  | ⟨0, _⟩ => rfl
  | ⟨1, _⟩ => rfl
  | ⟨2, _⟩ => rfl

theorem words_apply (p : Fin 4096) (c : Fin 3) : words x0 (ix2 p c) = rowWord (x0 (ix3 (0 : Fin 1) p c)) := by
  have e : shapeCast S4096x3 x0 shapeCasts_S1x4096x3_S4096x3 (ix2 p c) = x0 (ix3 (0 : Fin 1) p c) :=
    dropUnit_ix2 x0 shapeCasts_S1x4096x3_S4096x3 p c
  show clampWord (FloatOps.fptosi (F := Ideal) (φ := .f32) 32 (FloatOps.roundeven (F := Ideal) (φ := .f32)
    (FloatOps.mulf (F := Ideal) (φ := .f32) (FloatOps.ofBits .f32 0x437F0000#32) (shapeCast S4096x3 x0 shapeCasts_S1x4096x3_S4096x3 (ix2 p c))))) = _
  rw [e]
  rfl

theorem table_apply (r : Fin 256) (c : Fin 3) : table x1 (ix2 r c) = x1 (ix3 (0 : Fin 1) r c) := by
  unfold table
  exact dropUnit_ix2 x1 shapeCasts_S1x256x3_S256x3 r c

/-- Channel o's one-column product. -/
def column (o : Nat) (hs1 : S4096x3.Slices ![0, o] S4096x1) (hs2 : S256x3.Slices ![0, o] S256x1) : FVec Ideal S4096x1 .f32 :=
  matmul dot_S4096x256_S256x1_S4096x1_1_0_0_1_n_n none
    (truncf .bf16 (sitofp .f32 (extui 32 (cmpi .eq (broadcastTo S4096x256 (extractStridedSlice S4096x1 ![0, o] (words x0) hs1) broadcasts_S4096x1_S4096x256)
      (iota .tc S4096x256 32 [1] iota_S4096x256_d1_w32)) natLt_1_32) : FVec Ideal S4096x256 .f32) bitsLt_bf16_f32)
    (truncf .bf16 (extractStridedSlice S256x1 ![0, o] (table x1) hs2) bitsLt_bf16_f32)
    (constant S4096x1 .f32 0x00000000#32)

/-- The three columns, as the pieces laid side by side. -/
abbrev pieces : List ((s : Shape) × (s.Idx → Ideal .f32)) :=
  [⟨S4096x1, column x0 x1 0 slices_S4096x3_o0_0_S4096x1 slices_S256x3_o0_0_S256x1⟩,
    ⟨S4096x1, column x0 x1 1 slices_S4096x3_o0_1_S4096x1 slices_S256x3_o0_1_S256x1⟩,
    ⟨S4096x1, column x0 x1 2 slices_S4096x3_o0_2_S4096x1 slices_S256x3_o0_2_S256x1⟩]

/-- The body's value before its last change of shape: the three columns side by side. -/
theorem pay2_eq : k0_pay2 (F := Ideal) x0 x1
    = concatenate S4096x3 1 (pieces x0 x1) concatenates_S4096x1_S4096x1_S4096x1_S4096x3_d1 := rfl

/-- A column at row p: the table's entry at the row word. -/
theorem column_apply (o : Nat) (ho : o < 3) (hs1 : S4096x3.Slices ![0, o] S4096x1) (hs2 : S256x3.Slices ![0, o] S256x1)
    (p : Fin 4096) :
    column x0 x1 o hs1 hs2 (ix2 p (0 : Fin 1))
      = x1 (ix3 (0 : Fin 1) (row (x0 (ix3 (0 : Fin 1) p ⟨o, ho⟩))) ⟨o, ho⟩) := by
  have hw := words_apply x0 p ⟨o, ho⟩
  have hlt : (words x0 (ix2 p ⟨o, ho⟩)).toNat < 256 := by rw [hw]; exact rowWord_lt _
  refine (Cert.ColumnPick.column_pick (M := 4096) (words x0) (table x1) o ho hs1 hs2 broadcasts_S4096x1_S4096x256
    iota_S4096x256_d1_w32 natLt_1_32 bitsLt_bf16_f32 p hlt).trans ?_
  rw [table_apply]
  congr 1
  funext d
  refine Fin.ext ?_
  match d with
  | ⟨0, _⟩ => rfl
  | ⟨1, _⟩ => show (words x0 (ix2 p ⟨o, ho⟩)).toNat = (rowWord _).toNat; rw [hw]
  | ⟨2, _⟩ => rfl

/-- THE BODY'S RESULT at (0, p, c). -/
theorem payload_apply (p : Fin 4096) (c : Fin 3) :
    k0_pay1 (F := Ideal) (k0_pay2 (F := Ideal) x0 x1) (ix3 (0 : Fin 1) p c)
      = x1 (ix3 (0 : Fin 1) (row (x0 (ix3 (0 : Fin 1) p c))) c) := by
  unfold k0_pay1
  refine (shapeCast_addUnit_apply ![4096, 3] (k0_pay2 (F := Ideal) x0 x1) shapeCasts_S4096x3_S1x4096x3 (ix3 (0 : Fin 1) p c)).trans ?_
  have e : (fun a : Fin 2 => ix3 (0 : Fin 1) p c a.succ) = ix2 p c := funext fun a => by
    match a with
    | ⟨0, _⟩ => rfl
    | ⟨1, _⟩ => rfl
  rw [e, pay2_eq]
  match c with
  | ⟨0, h0⟩ =>
    refine (Cert.LibConcatRows.concat_rows_piece (M := 4096) (N := 3) (W := 1) (pieces x0 x1)
      concatenates_S4096x1_S4096x1_S4096x1_S4096x3_d1 0 (by simp [pieces]) _ rfl 0 (by simp [pieces])
      p (⟨0, h0⟩ : Fin 3) (0 : Fin 1) rfl).trans ?_
    exact column_apply x0 x1 0 h0 _ _ p
  | ⟨1, h1⟩ =>
    refine (Cert.LibConcatRows.concat_rows_piece (M := 4096) (N := 3) (W := 1) (pieces x0 x1)
      concatenates_S4096x1_S4096x1_S4096x1_S4096x3_d1 1 (by simp [pieces]) _ rfl 1 (by simp [pieces])
      p (⟨1, h1⟩ : Fin 3) (0 : Fin 1) rfl).trans ?_
    exact column_apply x0 x1 1 h1 _ _ p
  | ⟨2, h2⟩ =>
    refine (Cert.LibConcatRows.concat_rows_piece (M := 4096) (N := 3) (W := 1) (pieces x0 x1)
      concatenates_S4096x1_S4096x1_S4096x1_S4096x3_d1 2 (by simp [pieces]) _ rfl 2 (by simp [pieces])
      p (⟨2, h2⟩ : Fin 3) (0 : Fin 1) rfl).trans ?_
    exact column_apply x0 x1 2 h2 _ _ p

/-- The same at any index of the block. -/
theorem payload_at (j : S1x4096x3.Idx) :
    k0_pay1 (F := Ideal) (k0_pay2 (F := Ideal) x0 x1) j
      = x1 (ix3 (0 : Fin 1) (row (x0 (ix3 (0 : Fin 1) (j 1 : Fin 4096) (j 2 : Fin 3)))) (j 2 : Fin 3)) := by
  obtain ⟨a, p, c, rfl⟩ : ∃ (a : Fin 1) (p : Fin 4096) (c : Fin 3), j = ix3 a p c := ⟨j 0, j 1, j 2, eq_ix3 j⟩
  obtain rfl : a = 0 := Subsingleton.elim _ _
  exact payload_apply x0 x1 p c

end Cert.KernelIdeal.Payload

end
-- ==== Proof.KernelValue.lean ====
/-
  What the kernel's program leaves in its result, at the extended reals. The region finds the flattened image
  (the host's change of shape of the first argument) and the table as launched. Grid point t = 64·b + s works on
  sample b and pixel rows 4096·s … 4096·s + 4095: its pixel block and its output block are block (b, s, 0) of their
  arrays and its table block is block (b, 0, 0) of the table. By the body's result (KernelPayload) what the point writes
  back is that block of the lookup of the specification; the 1024 blocks tile the output array, so after the run the
  array IS the lookup; and the host's closing change of shape gives it the image's shape.
-/
import proofs.«131949_j3616362463510_1_alg».proof.Proof.Gen.KernelIdeal.Frame
import proofs.«131949_j3616362463510_1_alg».proof.Proof.KernelPayload
import proofs.«131949_j3616362463510_1_alg».proof.Proof.LutSpec
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.LutSpec Cert.KernelIdeal.Payload

variable (m : (ℓ : Loc nD τ sig) → Buf (Elt Ideal) ℓ) (ρ : Dev nD → PrngReg)

theorem hz : (![0, 0, 0] : Fin 3 → Nat) = fun _ => 0 := funext fun a => by fin_cases a <;> rfl

/-- The flattened image as the region finds it, and the table. -/
abbrev flatImage (c : Dev nD) : SFlat.Idx → EReal := V m c main_v0
abbrev tableArr (c : Dev nD) : STab.Idx → EReal := V m c main_arg1

/-- The block indices of the three windows at point t, decided over the 1024 points. -/
theorem idx_facts : ∀ t : Fin cfg0.N,
    win0_2.index t (0 : Fin 3) = t.val / 64 ∧ win0_2.index t (1 : Fin 3) = t.val % 64 ∧ win0_2.index t (2 : Fin 3) = 0
    ∧ win0_0.index t (0 : Fin 3) = t.val / 64 ∧ win0_0.index t (1 : Fin 3) = t.val % 64 ∧ win0_0.index t (2 : Fin 3) = 0
    ∧ win0_1.index t (0 : Fin 3) = t.val / 64 ∧ win0_1.index t (1 : Fin 3) = 0 ∧ win0_1.index t (2 : Fin 3) = 0 :=
  (by decide +kernel : ∀ t : Fin grid0.N, _)

/-- The pixel block at point t is the flattened image read at sample t / 64, rows 4096·(t % 64) + ·. -/
theorem pixelBlock_apply (c : Dev nD) (t : Fin cfg0.N) (y : S1x4096x3.Idx) (k : SFlat.Idx)
    (h0 : (k 0).val = t.val / 64 + (y 0).val) (h1 : (k 1).val = t.val % 64 * 4096 + (y 1).val) (h2 : (k 2).val = (y 2).val) :
    (iblk m c 0 t : S1x4096x3.Idx → EReal) y = flatImage m c k := by
  obtain ⟨-, -, -, e0, e1, e2, -, -, -⟩ := idx_facts t
  unfold iblk
  rw [View.read_apply]
  show V m c main_v0 _ = V m c main_v0 _
  congr 1
  funext a
  apply Fin.ext
  match a with
  | ⟨0, _⟩ => show win0_0.index t (0 : Fin 3) * 1 + 1 * (y 0).val = (k 0).val; rw [e0, h0]; omega
  | ⟨1, _⟩ => show win0_0.index t (1 : Fin 3) * 4096 + 1 * (y 1).val = (k 1).val; rw [e1, h1]; omega
  | ⟨2, _⟩ => show win0_0.index t (2 : Fin 3) * 3 + 1 * (y 2).val = (k 2).val; rw [e2, h2]; omega

/-- The table block at point t is the table of sample t / 64. -/
theorem tableBlock_apply (c : Dev nD) (t : Fin cfg0.N) (y : S1x256x3.Idx) (k : STab.Idx)
    (h0 : (k 0).val = t.val / 64 + (y 0).val) (h1 : (k 1).val = (y 1).val) (h2 : (k 2).val = (y 2).val) :
    (iblk m c 1 t : S1x256x3.Idx → EReal) y = tableArr m c k := by
  obtain ⟨-, -, -, -, -, -, e0, e1, e2⟩ := idx_facts t
  unfold iblk
  rw [View.read_apply]
  show V m c main_arg1 _ = V m c main_arg1 _
  congr 1
  funext a
  apply Fin.ext
  match a with
  | ⟨0, _⟩ => show win0_1.index t (0 : Fin 3) * 1 + 1 * (y 0).val = (k 0).val; rw [e0, h0]; omega
  | ⟨1, _⟩ => show win0_1.index t (1 : Fin 3) * 256 + 1 * (y 1).val = (k 1).val; rw [e1, h1]; omega
  | ⟨2, _⟩ => show win0_1.index t (2 : Fin 3) * 3 + 1 * (y 2).val = (k 2).val; rw [e2, h2]; omega

/-- WHAT POINT t WRITES BACK is block t of the lookup of the flattened image in the table. -/
theorem flushed_eq (c : Dev nD) (t : Fin cfg0.N) :
    (dats m 0 c).flushed 2 t = ((cfg0.win 2).blk t).view.read (Elt Ideal) (lookup (flatImage m c) (tableArr m c)) := by
  show (cfg0.win 2).cut (grid0.coords t) ((dats m 0 c).after 2 t) = _
  rw [after0_2]
  unfold out0_2
  rw [View.canon_unit_zero hz]
  simp only [View.ld_unit_zero (S := S1x4096x3) hz, View.ld_unit_zero (S := S1x256x3) hz]
  obtain ⟨e0, e1, e2, -, -, -, -, -, -⟩ := idx_facts t
  funext j
  show k0_pay1 (F := Ideal) (k0_pay2 (F := Ideal) (iblk m c 0 t) (iblk m c 1 t)) j
    = lookup (flatImage m c) (tableArr m c) (((cfg0.win 2).blk t).view.emb j)
  refine (payload_at (iblk m c 0 t) (iblk m c 1 t) j).trans ?_
  have hj0 : (j 0).val = 0 := by have : (j 0).val < 1 := (j 0).isLt; omega
  have b0 : ((((cfg0.win 2).blk t).view.emb j) 0).val = t.val / 64 + (j 0).val := by
    show win0_2.index t (0 : Fin 3) * 1 + 1 * (j 0).val = _; rw [e0]; omega
  have b1 : ((((cfg0.win 2).blk t).view.emb j) 1).val = t.val % 64 * 4096 + (j 1).val := by
    show win0_2.index t (1 : Fin 3) * 4096 + 1 * (j 1).val = _; rw [e1]; omega
  have b2 : ((((cfg0.win 2).blk t).view.emb j) 2).val = (j 2).val := by
    show win0_2.index t (2 : Fin 3) * 3 + 1 * (j 2).val = _; rw [e2]; omega
  have hpix : (iblk m c 0 t : S1x4096x3.Idx → EReal) (ix3 (0 : Fin 1) (j 1 : Fin 4096) (j 2 : Fin 3))
      = flatImage m c (((cfg0.win 2).blk t).view.emb j) :=
    pixelBlock_apply m c t _ _ (by rw [b0, hj0]; rfl) (by rw [b1]) (by rw [b2])
  rw [hpix]
  unfold lookup
  refine tableBlock_apply m c t _ _ ?_ ?_ ?_
  · show (((cfg0.win 2).blk t).view.emb j 0).val = t.val / 64 + 0; rw [b0, hj0]
  · rfl
  · show (((cfg0.win 2).blk t).view.emb j 2).val = (j 2).val; exact b2

/-- An index of the output array is in point t's block iff each coordinate is in the block's range. -/
theorem mem_blk (t : Fin cfg0.N) (i : SFlat.Idx) :
    i ∈ ((cfg0.win 2).blk t).view.set ↔ ∀ a : Fin 3, win0_2.index t a * S1x4096x3.size a ≤ (i a).val ∧ (i a).val < win0_2.index t a * S1x4096x3.size a + S1x4096x3.size a := by
  show i ∈ ((View.whole main_v1).slice (win0_2.rect t)).set ↔ _
  rw [View.set_slice_whole, Rect.mem_set_unit]
  exact Iff.rfl

/-- Every index of the output array lies in the block of point 64·(sample) + (row / 4096). -/
theorem cover (i : SFlat.Idx) : ∃ t : Fin cfg0.N, (cfg0.win 2).flush t = true ∧ i ∈ ((cfg0.win 2).blk t).view.set := by
  have hi0 : (i 0).val < 16 := (i 0).isLt
  have hi1 : (i 1).val < 262144 := (i 1).isLt
  have hi2 : (i 2).val < 3 := (i 2).isLt
  have hN : cfg0.N = 1024 := N_0
  let t : Fin cfg0.N := ⟨(i 0).val * 64 + (i 1).val / 4096, by rw [hN]; omega⟩
  refine ⟨t, flush0_2 t, ?_⟩
  obtain ⟨e0, e1, e2, -, -, -, -, -, -⟩ := idx_facts t
  have ht : t.val = (i 0).val * 64 + (i 1).val / 4096 := rfl
  rw [mem_blk]
  intro a
  match a with
  | ⟨0, _⟩ => show win0_2.index t (0 : Fin 3) * 1 ≤ (i 0).val ∧ (i 0).val < win0_2.index t (0 : Fin 3) * 1 + 1; rw [e0, ht]; omega
  | ⟨1, _⟩ => show win0_2.index t (1 : Fin 3) * 4096 ≤ (i 1).val ∧ (i 1).val < win0_2.index t (1 : Fin 3) * 4096 + 4096; rw [e1, ht]; omega
  | ⟨2, _⟩ => show win0_2.index t (2 : Fin 3) * 3 ≤ (i 2).val ∧ (i 2).val < win0_2.index t (2 : Fin 3) * 3 + 3; rw [e2]; omega

/-- THE OUTPUT ARRAY after the run is the lookup. -/
theorem final (c : Dev nD) : (dats m 0 c).arrAt 2 cfg0.N = lookup (flatImage m c) (tableArr m c) :=
  (dats m 0 c).arrAt_eq_of_cover 2 (lookup (flatImage m c) (tableArr m c)) (fun t _ => flushed_eq m c t) cover

/-- The flattened image is the host's change of shape of the first argument. -/
theorem flatImage_eq (c : Dev nD) :
    flatImage m c = shapeCast SFlat (m ((c : Thread nD τ).loc main_arg0) : SImg.Idx → EReal) shapeCasts_S16x512x512x3_S16x262144x3 := by
  show StableHlo.after hostOps0 (fun b => m (c, b)) (Proc.devRef .tc main_v0) = _
  after_results
  rfl

/-- The table is found as launched. -/
theorem tableArr_eq (c : Dev nD) : tableArr m c = m ((c : Thread nD τ).loc main_arg1) := V_main_arg1 m c

/-- The result buffer after the host's closing change of shape. -/
theorem tail_eq (c : Dev nD) :
    Pipeline.afterTail₀ cfgs (dats m) 0 (V0 m) [hostOps1] c main_v2
      = lutImage shapeCasts_S16x512x512x3_S16x262144x3 shapeCasts_S16x262144x3_S16x512x512x3
          (m ((c : Thread nD τ).loc main_arg0)) (m ((c : Thread nD τ).loc main_arg1)) := by
  unfold Pipeline.afterTail₀
  show StableHlo.after hostOps1 _ (Proc.devRef .tc main_v2) = _
  after_results
  have hA := (Pipeline.withArrays_arr spec0 launch0.win.arr_inj c (V0 m c) (fun w => (dats m 0 c).arrAt w cfg0.N) 2).trans (final m c)
  unfold lutImage
  rw [← flatImage_eq m c, ← tableArr_eq m c]
  exact congrArg (fun v => shapeCast S16x512x512x3 v shapeCasts_S16x262144x3_S16x512x512x3) hA

/-- THE RUN, read: the result at the lookup in the image's shape, the arguments unchanged. -/
theorem run : θ_run defs (onTc (τ := τ) (main (F := Ideal))) ⟨m, fun _ => 0, ρ⟩ fun r => ∀ c : Dev nD,
      r.2.mem ((c.tc : Thread nD τ).loc main_v2)
        = lutImage shapeCasts_S16x512x512x3_S16x262144x3 shapeCasts_S16x262144x3_S16x512x512x3
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KernelValue

end
-- ==== Proof.lean ====
/- The proof of `Cert.Claim`: a per-pixel lookup in a 256-row table, computed by the kernel as a product of a matrix of
   indicators with the table and by the reference as a gather, is one function on the extended reals.

   Both programs flatten the image im : [16, 512, 512, 3] to [16, 262144, 3], form for every entry x the row
   row x = clamp (toInt (roundHalfEven (255 · x))) into [0, 255] with the same operations and the same literals, and
   give the result the image's shape again. In between, the reference takes T[b, row, c] by a gather (its index is
   never negative and never past the table, so neither its wrap-around nor its out-of-range filler is ever used),
   and the kernel sums, over the 256 rows k, [row = k] · T[b, k, c]: every term but one is 0 · T[b, k, c] = 0, whatever
   T[b, k, c] is, so the sum is T[b, row, c] too. Nothing here needs the inputs to be finite.

   Proof/LutSpec.lean states the lookup once; Proof/RefValue.lean reads the reference's stages at an index (over
   Proof/ReferenceRun.lean, the reference's run) and Proof/KernelValue.lean the kernel's result (over the generated
   frame run, Proof/KernelPayload.lean for the body and Proof/ColumnPick.lean for one channel's product);
   Proof/LibOneHotPick.lean, Proof/LibGatherAlong3.lean, Proof/LibPlainDot.lean and Proof/LibConcatRows.lean are
   general lemmas. The frames of the two kernel programs are the generated ones; the reference's frame is its run with the
   result dropped; the idealization rewrote nothing, so `preserves` is trivial. -/
import proofs.«131949_j3616362463510_1_alg».proof.Defs
import proofs.«131949_j3616362463510_1_alg».proof.Proof.Gen.Kernel
import proofs.«131949_j3616362463510_1_alg».proof.Proof.Gen.Kernel.Skeleton
import proofs.«131949_j3616362463510_1_alg».proof.Proof.Gen.Kernel.Launch
import proofs.«131949_j3616362463510_1_alg».proof.Proof.Gen.Kernel.Points
import proofs.«131949_j3616362463510_1_alg».proof.Proof.Gen.Kernel.Frame
import proofs.«131949_j3616362463510_1_alg».proof.Proof.Gen.KernelIdeal
import proofs.«131949_j3616362463510_1_alg».proof.Proof.Gen.KernelIdeal.Skeleton
import proofs.«131949_j3616362463510_1_alg».proof.Proof.Gen.KernelIdeal.Launch
import proofs.«131949_j3616362463510_1_alg».proof.Proof.Gen.KernelIdeal.Points
import proofs.«131949_j3616362463510_1_alg».proof.Proof.Gen.KernelIdeal.Frame
import proofs.«131949_j3616362463510_1_alg».proof.Proof.Gen.ReferenceIdeal
import proofs.«131949_j3616362463510_1_alg».proof.Proof.Gen.Pre_finite_inputs
import proofs.«131949_j3616362463510_1_alg».proof.Proof.ReferenceRun
import proofs.«131949_j3616362463510_1_alg».proof.Proof.RefValue
import proofs.«131949_j3616362463510_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.StagedRun.run (F := Ideal) m ρ)

/-- Both runs end with the result at the lookup of the specification, of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.StagedRun.run (F := Ideal) m' ρ')
  unfold Cert.ReferenceIdeal.StagedRun.res_main_v7
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
